-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S2048x64 : Shape := ⟨2, ![2048, 64]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_

variable [Facts]

def fn {F : FTy → Type} [FloatOps F] (main_arg0 : FVec F S65536x64 .f32) (main_arg1 : FVec F S2048x64 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  main_v8
-- ==== Kernel.lean ====
abbrev S65536x64 : Shape := ⟨2, ![65536, 64]⟩
abbrev S2048x64 : Shape := ⟨2, ![2048, 64]⟩
abbrev S65536x2048 : Shape := ⟨2, ![65536, 2048]⟩
abbrev S1024x64 : Shape := ⟨2, ![1024, 64]⟩
abbrev S1024x2048 : Shape := ⟨2, ![1024, 2048]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S64x2048 : Shape := ⟨2, ![64, 2048]⟩

abbrev nBuf : Space → Nat
  | .hbm => 3
  | .vmem => 5
  | .smem => 0
  | _ => 0

abbrev bufTy : (tb : Table) → Fin (tcTables nBuf tb) → BufTy
  | .hbm, ⟨0, _⟩ => ⟨S65536x64, .f32⟩
  | .hbm, ⟨1, _⟩ => ⟨S2048x64, .f32⟩
  | .hbm, ⟨2, _⟩ => ⟨S65536x2048, .f32⟩
  | .local _ .vmem, ⟨0, _⟩ => ⟨S1024x64, .f32⟩
  | .local _ .vmem, ⟨1, _⟩ => ⟨S1024x64, .f32⟩
  | .local _ .vmem, ⟨2, _⟩ => ⟨S2048x64, .f32⟩
  | .local _ .vmem, ⟨3, _⟩ => ⟨S1024x2048, .f32⟩
  | .local _ .vmem, ⟨4, _⟩ => ⟨S1024x2048, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x64_S1024x64_0_0 : ∀ a, (![0, 0] : Fin 2 → Nat) a + S1024x64.size a ≤ S1024x64.size a
  h_S1024x64 : 0 < S1024x64.numel
  inb_S2048x64_S2048x64_0_0 : ∀ a, (![0, 0] : Fin 2 → Nat) a + S2048x64.size a ≤ S2048x64.size a
  h_S2048x64 : 0 < S2048x64.numel
  reduces_S1024x64_S1024 : S1024x64.Reduces [1] S1024
  shapeCasts_S1024_S1024x1 : S1024.ShapeCasts S1024x1
  reduces_S2048x64_S2048 : S2048x64.Reduces [1] S2048
  shapeCasts_S2048_S1x2048 : S2048.ShapeCasts S1x2048
  transposes_S2048x64_p1_0_S64x2048 : S2048x64.Transposes [1, 0] S64x2048
  broadcasts_S1024x1_S1024x2048 : S1024x1.Broadcasts S1024x2048
  broadcasts_S1x2048_S1024x2048 : S1x2048.Broadcasts S1024x2048
  inb_S1024x2048_S1024x2048_0_0 : ∀ a, (![0, 0] : Fin 2 → Nat) a + S1024x2048.size a ≤ S1024x2048.size a
  h_S1024x2048 : 0 < S1024x2048.numel
  dot_S1024x64_S64x2048_S1024x2048_1_0_0_1_n_n_wf : DotDims.WF S1024x64 S64x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S65536x64.size a
  hwx0_0 : ∀ i : grid0.Coords, EltTy.bits .f32 = 32 ∨ (Rect.block (s := S65536x64) S1024x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x64.size a ≤ S2048x64.size a
  hwx0_1 : ∀ i : grid0.Coords, EltTy.bits .f32 = 32 ∨ (Rect.block (s := S2048x64) S2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S65536x2048.size a
  hwx0_2 : ∀ i : grid0.Coords, EltTy.bits .f32 = 32 ∨ (Rect.block (s := S65536x2048) S1024x2048.size (cc0_transform_2 i) (hinb0_2 i)).WholeWords (EltTy.packing .f32)

variable [Facts₀]

def dot_S1024x64_S64x2048_S1024x2048_1_0_0_1_n_n : DotDims S1024x64 S64x2048 S1024x2048 where
  lhsContracting := [1]
  rhsContracting := [0]
  lhsNonContracting := [0]
  rhsNonContracting := [1]
  lhsBatch := []
  rhsBatch := []
  wf := dot_S1024x64_S64x2048_S1024x2048_1_0_0_1_n_n_wf

abbrev win0_0 : Pipeline.Window sig grid0 :=
  Pipeline.Window.ofSpec (Memref.whole main_arg0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x64 : Shape := ⟨2, ![65536, 64]⟩
abbrev S2048x64 : Shape := ⟨2, ![2048, 64]⟩
abbrev S_ : Shape := ⟨0, ![]⟩
abbrev S65536 : Shape := ⟨1, ![65536]⟩
abbrev S65536x1 : Shape := ⟨2, ![65536, 1]⟩
abbrev S2048 : Shape := ⟨1, ![2048]⟩
abbrev S64x2048 : Shape := ⟨2, ![64, 2048]⟩
abbrev S65536x2048 : Shape := ⟨2, ![65536, 2048]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S2048x64, .f32⟩
  | .hbm, ⟨2, _⟩ => ⟨S65536x64, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S2048x64, .f32⟩
  | .hbm, ⟨7, _⟩ => ⟨S_, .f32⟩
  | .hbm, ⟨8, _⟩ => ⟨S2048, .f32⟩
  | .hbm, ⟨9, _⟩ => ⟨S64x2048, .f32⟩
  | .hbm, ⟨10, _⟩ => ⟨S65536x2048, .f32⟩
  | .hbm, ⟨11, _⟩ => ⟨S1x2048, .f32⟩
  | .hbm, ⟨12, _⟩ => ⟨S65536x2048, .f32⟩
  | .hbm, ⟨13, _⟩ => ⟨S65536x2048, .f32⟩
  | .hbm, ⟨14, _⟩ => ⟨S65536x2048, .f32⟩
  | .hbm, ⟨15, _⟩ => ⟨S_, .f32⟩
  | .hbm, ⟨16, _⟩ => ⟨S65536x2048, .f32⟩
  | .hbm, ⟨17, _⟩ => ⟨S65536x2048, .f32⟩
  | .hbm, ⟨18, _⟩ => ⟨S65536x2048, .f32⟩
  | .hbm, ⟨19, _⟩ => ⟨S_, .f32⟩
  | .hbm, ⟨20, _⟩ => ⟨S65536x2048, .f32⟩
  | .hbm, ⟨21, _⟩ => ⟨S65536x2048, .f32⟩
  | .hbm, ⟨22, _⟩ => ⟨S_, .f32⟩
  | .hbm, ⟨23, _⟩ => ⟨S65536x2048, .f32⟩
  | .hbm, ⟨24, _⟩ => ⟨S65536x2048, .f32⟩
  | .hbm, ⟨25, _⟩ => ⟨S65536x2048, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  reducesTo_S65536x64_S65536_d1 : S65536x64.ReducesTo [1] S65536
  h_S_ : 0 < S_.numel
  bcast_S65536_S65536x1_0 : S65536.BroadcastsInDim S65536x1 (![0] : Fin 1 → Fin S65536x1.rank)
  reducesTo_S2048x64_S2048_d1 : S2048x64.ReducesTo [1] S2048
  transposes_S2048x64_S64x2048_1_0 : S2048x64.Transposes [1, 0] S64x2048
  bcast_S2048_S1x2048_1 : S2048.BroadcastsInDim S1x2048 (![1] : Fin 1 → Fin S1x2048.rank)
  bcast_S65536x1_S65536x2048_0_1 : S65536x1.BroadcastsInDim S65536x2048 (![0, 1] : Fin 2 → Fin S65536x2048.rank)
  bcast_S1x2048_S65536x2048_0_1 : S1x2048.BroadcastsInDim S65536x2048 (![0, 1] : Fin 2 → Fin S65536x2048.rank)
  bcast_S_S65536x2048 : S_.BroadcastsInDim S65536x2048 (![] : Fin 0 → Fin S65536x2048.rank)
  dot_S65536x64_S64x2048_S65536x2048_1_0_0_1_n_n_wf : DotDims.WF S65536x64 S64x2048 S65536x2048 [1] [0] [0] [1] [] []

variable [Facts₀]

def dot_S65536x64_S64x2048_S65536x2048_1_0_0_1_n_n : DotDims S65536x64 S64x2048 S65536x2048 where
  lhsContracting := [1]
  rhsContracting := [0]
  lhsNonContracting := [0]
  rhsNonContracting := [1]
  lhsBatch := []
  rhsBatch := []
  wf := dot_S65536x64_S64x2048_S65536x2048_1_0_0_1_n_n_wf

class Facts : Prop extends Facts₀ where

variable [Facts]
-- ==== Proof.RbfSpec.lean ====
/-
  The radial basis layer as one function of its two argument arrays, index by index, on the extended reals.

  For a batch array `x` of rows of 64 features and a centre array `c` of rows of 64 features, the entry at (p, q) is
  `exp (γ' · max (‖x p‖² + ‖c q‖² − 2 · ⟨x p, c q⟩) 0)`, where `γ'` is the float word for −1/64, `2` and `0` the float
  words for two and zero — the words both programs print, kept as words: the same word on both sides is never
  evaluated. The squared norm and the inner product are sums over the 64 features. The row counts are variables, so
  that the same definition reads a block of 1024 batch rows and the whole array of 65536.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx

/-- The squared norm of row `r`: the sum over the 64 features of the entry times itself. -/
def sqNorm {n : Nat} (a : (⟨2, ![n, 64]⟩ : Shape).Idx → EReal) (r : Fin n) : EReal :=
  ∑ k : Fin 64, a (ix2 r k) * a (ix2 r k)

/-- The inner product of row `p` of `x` with row `q` of `c`, over the 64 features. -/
def inner {n m : Nat} (x : (⟨2, ![n, 64]⟩ : Shape).Idx → EReal) (c : (⟨2, ![m, 64]⟩ : Shape).Idx → EReal)
    (p : Fin n) (q : Fin m) : EReal :=
  ∑ k : Fin 64, x (ix2 p k) * c (ix2 q k)

/-- The layer's entry at batch row `p` and centre `q`: the squared distance written as
    `‖x p‖² + ‖c q‖² − 2 · ⟨x p, c q⟩`, clamped below at zero, scaled by −1/64 and exponentiated. -/
def rbfAt {n m : Nat} (x : (⟨2, ![n, 64]⟩ : Shape).Idx → EReal) (c : (⟨2, ![m, 64]⟩ : Shape).Idx → EReal)
    (p : Fin n) (q : Fin m) : EReal :=
  Ideal.exp (Ideal.ofBits .f32 0xBC800000#32
    * max (sqNorm x p + sqNorm c q - Ideal.ofBits .f32 0x40000000#32 * inner x c p q) (Ideal.ofBits .f32 0x00000000#32))

/-- The whole result array: entry (b, u) is the layer's value at batch row `b` and centre `u`. -/
def rbf (x : (⟨2, ![65536, 64]⟩ : Shape).Idx → EReal) (c : (⟨2, ![2048, 64]⟩ : Shape).Idx → EReal) :
    (⟨2, ![65536, 2048]⟩ : Shape).Idx → EReal :=
  fun i => rbfAt x c (i 0) (i 1)

/-- The entry depends only on the two rows it names: if row `p` of `x` is row `b` of `X` and row `q` of `c` is
    row `u` of `C`, feature by feature, the entries agree. This is what carries a block's value to the array's. -/
theorem rbfAt_congr {n m N M : Nat} (x : (⟨2, ![n, 64]⟩ : Shape).Idx → EReal) (c : (⟨2, ![m, 64]⟩ : Shape).Idx → EReal)
    (X : (⟨2, ![N, 64]⟩ : Shape).Idx → EReal) (C : (⟨2, ![M, 64]⟩ : Shape).Idx → EReal)
    (p : Fin n) (q : Fin m) (b : Fin N) (u : Fin M)
    (hx : ∀ k : Fin 64, x (ix2 p k) = X (ix2 b k)) (hc : ∀ k : Fin 64, c (ix2 q k) = C (ix2 u k)) :
    rbfAt x c p q = rbfAt X C b u := by
  unfold rbfAt sqNorm inner
  simp only [hx, hc]

end Cert.Rbf

end
-- ==== Proof.RbfPayload.lean ====
/-
  The kernel body's one stored value, read at an index of its block.

  The body loads a block `x` of 1024 batch rows and the whole centre array `c` of 2048 rows, and stores
  `exp (γ' · max (xsq + csq − 2 · cross) 0)` over the [1024, 2048] block, where `xsq` is the lane sum of `x · x` kept as a
  column and spread over the 2048 columns, `csq` the lane sum of `c · c` kept as a row and spread over the 1024 rows, and
  `cross` the matrix product of `x` with the transpose of `c` into a zero accumulator. At the exact values a lane sum
  is the sum over the 64 features and the matrix product at (p, q) is the sum over the 64 features of
  `x (p, k) · c (q, k)`; so the stored value at (p, q) is the radial basis entry of row `p` of `x` and row `q` of `c`.
-/
import proofs.«139703_j8881992368406_1_alg».proof.Proof.Gen.KernelIdeal.Skeleton
import proofs.«139703_j8881992368406_1_alg».proof.Proof.RbfSpec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx

/-! ## The two column forms of a kept reduced axis -/

/-- A vector of `a` entries cast to a column [a, 1] reads, at (i, u), the vector's entry `i`, whatever the unit
    coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] spread over `b` columns reads, at (p, q), the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## A lane sum of squares is a squared norm -/

/-- The lane sum of `v · v` over the 64 features, at row `r`, is the squared norm of row `r` of `v`: the reduction
    is the plain sum over the reduced axis, and the index it sums over is (r, k). -/
theorem laneSumSq_apply {n : ℕ} (v : FVec Ideal ⟨2, ![n, 64]⟩ .f32)
    (h : (⟨2, ![n, 64]⟩ : Shape).Reduces [1] ⟨1, ![n]⟩) (r : Fin n) :
    multiReduction .add [1] ⟨1, ![n]⟩ (mulf v v) 0x00000000#32 h (.inl rfl) rfl (ix1 r) = Cert.Rbf.sqNorm v r := by
  refine (Ideal.multiReduction_add_single (mulf v v) 0x00000000#32 h (.inl rfl) rfl (ix1 r)).trans ?_
  unfold Cert.Rbf.sqNorm
  refine Finset.sum_congr rfl fun k _ => ?_
  have e : h.lift (ix1 r) k = ix2 r k :=
    funext fun a => Fin.ext (by match a with | ⟨0, _⟩ => rfl | ⟨1, _⟩ => rfl)
  rw [e]
  rfl

/-- The batch block's squared norms, kept as a column and spread over the 2048 centres: at (p, q), the squared norm
    of batch row `p`. -/
theorem batchSq_apply (x : FVec Ideal S1024x64 .f32) (p : Fin 1024) (q : Fin 2048) :
    broadcastTo S1024x2048 (shapeCast S1024x1 (multiReduction .add [1] S1024 (mulf x x) 0x00000000#32 reduces_S1024x64_S1024 (.inl rfl) rfl)
      shapeCasts_S1024_S1024x1) broadcasts_S1024x1_S1024x2048 (ix2 p q) = Cert.Rbf.sqNorm x p :=
  (broadcastTo_a1_ab_apply _ broadcasts_S1024x1_S1024x2048 p q).trans
    ((shapeCast_a_a1_apply _ shapeCasts_S1024_S1024x1 p (0 : Fin 1)).trans (laneSumSq_apply x reduces_S1024x64_S1024 p))

/-- The centres' squared norms, kept as a row and spread over the 1024 batch rows: at (p, q), the squared norm of
    centre `q`. -/
theorem centreSq_apply (c : FVec Ideal S2048x64 .f32) (p : Fin 1024) (q : Fin 2048) :
    broadcastTo S1024x2048 (shapeCast S1x2048 (multiReduction .add [1] S2048 (mulf c c) 0x00000000#32 reduces_S2048x64_S2048 (.inl rfl) rfl)
      shapeCasts_S2048_S1x2048) broadcasts_S1x2048_S1024x2048 (ix2 p q) = Cert.Rbf.sqNorm c q :=
  (broadcastTo_1b_ab_apply _ broadcasts_S1x2048_S1024x2048 p q).trans
    ((shapeCast_a_1a_apply _ shapeCasts_S2048_S1x2048 (0 : Fin 1) q).trans (laneSumSq_apply c reduces_S2048x64_S2048 q))

/-! ## The matrix product with the transposed centres is the inner product of two rows -/

/-- The left operand's index at output (i₀, i₁) and contraction index `k` has row `i₀`; -/
theorem lhs_row (i : S1024x2048.Idx) (k : dot_S1024x64_S64x2048_S1024x2048_1_0_0_1_n_n.contr.Idx) :
    (dot_S1024x64_S64x2048_S1024x2048_1_0_0_1_n_n.lhsIdx i k 0).val = (i 0).val := by
  unfold DotDims.lhsIdx
  rw [dif_neg (show ¬(0 : Fin S1024x64.rank) ∈ dot_S1024x64_S64x2048_S1024x2048_1_0_0_1_n_n.lhsBatch by decide),
    dif_pos (show (0 : Fin S1024x64.rank) ∈ dot_S1024x64_S64x2048_S1024x2048_1_0_0_1_n_n.lhsNonContracting by decide)]
  rfl
/-- and column `k`. -/
theorem lhs_col (i : S1024x2048.Idx) (k : dot_S1024x64_S64x2048_S1024x2048_1_0_0_1_n_n.contr.Idx) :
    (dot_S1024x64_S64x2048_S1024x2048_1_0_0_1_n_n.lhsIdx i k 1).val = (k ⟨0, by decide⟩).val :=
  dot_S1024x64_S64x2048_S1024x2048_1_0_0_1_n_n.lhsIdx_val_of_single rfl i k
/-- The right operand's index there has row `k`; -/
theorem rhs_row (i : S1024x2048.Idx) (k : dot_S1024x64_S64x2048_S1024x2048_1_0_0_1_n_n.contr.Idx) :
    (dot_S1024x64_S64x2048_S1024x2048_1_0_0_1_n_n.rhsIdx i k 0).val = (k ⟨0, by decide⟩).val :=
  dot_S1024x64_S64x2048_S1024x2048_1_0_0_1_n_n.rhsIdx_val_of_single rfl i k
/-- and column `i₁`. -/
theorem rhs_col (i : S1024x2048.Idx) (k : dot_S1024x64_S64x2048_S1024x2048_1_0_0_1_n_n.contr.Idx) :
    (dot_S1024x64_S64x2048_S1024x2048_1_0_0_1_n_n.rhsIdx i k 1).val = (i 1).val := by
  unfold DotDims.rhsIdx
  rw [dif_neg (show ¬(1 : Fin S64x2048.rank) ∈ dot_S1024x64_S64x2048_S1024x2048_1_0_0_1_n_n.rhsBatch by decide),
    dif_pos (show (1 : Fin S64x2048.rank) ∈ dot_S1024x64_S64x2048_S1024x2048_1_0_0_1_n_n.rhsNonContracting by decide)]
  rfl

/-- The product of the batch block with the transposed centres, into a zero accumulator, at (p, q): the sum over
    the 64 features of `x (p, k) · c (q, k)`, the inner product of batch row `p` with centre `q`. -/
theorem cross_apply (x : FVec Ideal S1024x64 .f32) (c : FVec Ideal S2048x64 .f32) (p : Fin 1024) (q : Fin 2048) :
    matmul dot_S1024x64_S64x2048_S1024x2048_1_0_0_1_n_n none x (transpose S64x2048 [1, 0] c transposes_S2048x64_p1_0_S64x2048)
      (constant S1024x2048 .f32 0x00000000#32) (ix2 p q) = Cert.Rbf.inner x c p q := by
  simp only [matmul]
  rw [Ideal.matmul_constant_zero_apply, ← Equiv.sum_comp (ValueIdx.contrEquiv1 dot_S1024x64_S64x2048_S1024x2048_1_0_0_1_n_n 64 rfl rfl).symm]
  unfold Cert.Rbf.inner
  refine Finset.sum_congr rfl fun k _ => ?_
  have hk := ValueIdx.contrEquiv1_symm_val dot_S1024x64_S64x2048_S1024x2048_1_0_0_1_n_n 64 rfl rfl k
  have el : dot_S1024x64_S64x2048_S1024x2048_1_0_0_1_n_n.lhsIdx (ix2 p q) ((ValueIdx.contrEquiv1 dot_S1024x64_S64x2048_S1024x2048_1_0_0_1_n_n 64 rfl rfl).symm k) = ix2 p k :=
    funext fun a => Fin.ext (by
      match a with
      | ⟨0, _⟩ => exact lhs_row _ _
      | ⟨1, _⟩ => exact (lhs_col _ _).trans hk)
  have er : dot_S1024x64_S64x2048_S1024x2048_1_0_0_1_n_n.rhsIdx (ix2 p q) ((ValueIdx.contrEquiv1 dot_S1024x64_S64x2048_S1024x2048_1_0_0_1_n_n 64 rfl rfl).symm k) = ix2 k q :=
    funext fun a => Fin.ext (by
      match a with
      | ⟨0, _⟩ => exact (rhs_row _ _).trans hk
      | ⟨1, _⟩ => exact rhs_col _ _)
  rw [el, er]
  exact congrArg (x (ix2 p k) * ·) (transpose_ix2_apply c transposes_S2048x64_p1_0_S64x2048 k q)

/-! ## The stored value -/

/-- The body's stored value at (p, q) of its block is the radial basis entry of row `p` of the batch block and row
    `q` of the centres: the three non-pointwise pieces are the two squared norms and the inner product, and the
    pointwise operations around them are the specification's own. -/
theorem stored_apply (x : FVec Ideal S1024x64 .f32) (c : FVec Ideal S2048x64 .f32) (p : Fin 1024) (q : Fin 2048) :
    k0_pay1 (F := Ideal) x c (ix2 p q) = Cert.Rbf.rbfAt x c p q := by
  unfold k0_pay1 Cert.Rbf.rbfAt
  refine congrArg Ideal.exp (congrArg (Ideal.ofBits .f32 0xBC800000#32 * ·)
    (congrArg (max · (Ideal.ofBits .f32 0x00000000#32)) ?_))
  exact congr (congrArg HSub.hSub (congr (congrArg HAdd.hAdd (batchSq_apply x p q)) (centreSq_apply c p q)))
    (congrArg (Ideal.ofBits .f32 0x40000000#32 * ·) (cross_apply x c p q))

/-- The same at any index of the block, its two coordinates naming the batch row and the centre. -/
theorem stored_at (x : FVec Ideal S1024x64 .f32) (c : FVec Ideal S2048x64 .f32) (y : S1024x2048.Idx) :
    k0_pay1 (F := Ideal) x c y = Cert.Rbf.rbfAt x c (y 0) (y 1) :=
  (congrArg (k0_pay1 (F := Ideal) x c) (eq_ix2 y)).trans (stored_apply x c (y 0) (y 1))

end Cert.KernelIdeal.Payload

end
-- ==== Proof.RbfBlocks.lean ====
/-
  From the blocks to the whole array: the kernel's result is the radial basis layer of its two arguments.

  The grid has 64 points. At point `t` the batch window's block is rows 1024 t … 1024 t + 1023 of the batch, the
  centre window's block is the whole centre array at every point, and the output window's block is rows
  1024 t … 1024 t + 1023 of the result, all 2048 columns. What point `t` writes back is the body's stored value over
  those two input blocks; entry (p, q) of it is the layer's entry of batch row 1024 t + p and centre q, which is entry
  (1024 t + p, q) of the layer of the whole arrays. The 64 output blocks cover the result (row `r` lies in block
  `r / 1024`), so the result array ends holding the layer of the two argument arrays.
-/
import proofs.«139703_j8881992368406_1_alg».proof.Proof.Gen.KernelIdeal.Value
import proofs.«139703_j8881992368406_1_alg».proof.Proof.RbfSpec
import proofs.«139703_j8881992368406_1_alg».proof.Proof.RbfPayload
import Idealize.ShloMosaic.Lib.Pipeline.Value
import Idealize.ShloMosaic.Lib.ValueIdx
import Idealize.ShloMosaic.Lib.Tactic

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_off : (![0, 0] : Fin 2 → Nat) = fun _ => 0 := funext fun a => by fin_cases a <;> rfl

/-- The printed index maps over the grid: at point `t` the batch and the output windows are at block row `t`, block
    column 0; the centre window is at block (0, 0) throughout. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The two argument arrays, at their literal types. -/
abbrev batch (c : Dev nD) : S65536x64.Idx → EReal := m ((c : Thread nD τ).loc main_arg0)
abbrev centres (c : Dev nD) : S2048x64.Idx → EReal := m ((c : Thread nD τ).loc main_arg1)

/-- The two input blocks at point `t`, at their literal types. -/
abbrev batchBlock (c : Dev nD) (t : Fin cfg0.N) : FVec Ideal S1024x64 .f32 := iblk m c 0 t
abbrev centreBlock (c : Dev nD) (t : Fin cfg0.N) : FVec Ideal S2048x64 .f32 := iblk m c 1 t

/-- The batch block at point `t` is rows 1024 t … 1024 t + 1023 of the batch: its entry (r, k) is the batch's
    entry (b, k) for the row `b = 1024 t + r`. -/
theorem batchBlock_apply (c : Dev nD) (t : Fin cfg0.N) (r : Fin 1024) (k : Fin 64) (b : Fin 65536)
    (hb : b.val = t.val * 1024 + r.val) :
    batchBlock m c t (ix2 r k) = batch m c (ix2 b k) := by
  obtain ⟨e0, e1, -, -, -, -⟩ := block_index t
  unfold batchBlock iblk
  rw [View.read_apply]
  show V m c main_arg0 _ = m (c.tc.loc main_arg0) _
  unfold V
  congr 1
  funext a
  apply Fin.ext
  match a with
  | ⟨0, _⟩ => show win0_0.index t (0 : Fin 2) * 1024 + 1 * r.val = b.val; rw [e0, hb]; omega
  | ⟨1, _⟩ => show win0_0.index t (1 : Fin 2) * 64 + 1 * k.val = k.val; rw [e1]; omega

/-- The centre block at every point is the whole centre array: its entry (q, k) is the centres' entry (u, k) for
    `u = q`. -/
theorem centreBlock_apply (c : Dev nD) (t : Fin cfg0.N) (q : Fin 2048) (k : Fin 64) (u : Fin 2048) (hu : u.val = q.val) :
    centreBlock m c t (ix2 q k) = centres m c (ix2 u k) := by
  obtain ⟨-, -, e2, e3, -, -⟩ := block_index t
  unfold centreBlock iblk
  rw [View.read_apply]
  show V m c main_arg1 _ = m (c.tc.loc main_arg1) _
  unfold V
  congr 1
  funext a
  apply Fin.ext
  match a with
  | ⟨0, _⟩ => show win0_1.index t (0 : Fin 2) * 2048 + 1 * q.val = u.val; rw [e2, hu]; omega
  | ⟨1, _⟩ => show win0_1.index t (1 : Fin 2) * 64 + 1 * k.val = k.val; rw [e3]; omega

/-- WHAT POINT `t` WRITES BACK is block `t` of the layer of the whole argument arrays. -/
theorem flushed_eq (c : Dev nD) (t : Fin cfg0.N) :
    (dats m 0 c).flushed 2 t = ((cfg0.win 2).blk t).view.read (Elt Ideal) (Cert.Rbf.rbf (batch m c) (centres m c)) := by
  rw [Cert.KernelIdeal.Value.flushed2]
  unfold out0_2
  rw [View.canon_unit_zero zero_off]
  simp only [View.ld_unit_zero (S := S1024x64) zero_off, View.ld_unit_zero (S := S2048x64) zero_off]
  obtain ⟨-, -, -, -, e4, e5⟩ := block_index t
  funext j
  refine (Cert.KernelIdeal.Payload.stored_at (batchBlock m c t) (centreBlock m c t) ((cfg0.win 2).xinj (grid0.coords t) j)).trans ?_
  show _ = Cert.Rbf.rbfAt (batch m c) (centres m c) ((((cfg0.win 2).blk t).view.emb j) 0) ((((cfg0.win 2).blk t).view.emb j) 1)
  refine Cert.Rbf.rbfAt_congr (n := 1024) (m := 2048) (N := 65536) (M := 2048) (batchBlock m c t) (centreBlock m c t)
    (batch m c) (centres m c) _ _ _ _ (fun k => ?_) (fun k => ?_)
  · refine batchBlock_apply m c t _ k _ ?_
    show win0_2.index t (0 : Fin 2) * 1024 + 1 * (j 0).val = t.val * 1024 + (j 0).val
    rw [e4]; omega
  · refine centreBlock_apply m c t _ k _ ?_
    show win0_2.index t (1 : Fin 2) * 2048 + 1 * (j 1).val = (j 1).val
    rw [e5]; omega

/-- An index of the result is in point `t`'s block iff each coordinate is in the block's range on its axis. -/
theorem mem_block (t : Fin cfg0.N) (i : S65536x2048.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- THE COVER: row `r` of the result lies in the block of point `r / 1024`, which is written back. -/
theorem covered (i : S65536x2048.Idx) :
    ∃ t : Fin cfg0.N, (cfg0.win 2).flush t = true ∧ i ∈ ((cfg0.win 2).blk t).view.set := by
  have hN : grid0.N = 64 := N_0
  have hi0 : (i 0).val < 65536 := (i 0).isLt
  have hi1 : (i 1).val < 2048 := (i 1).isLt
  have ht : (i 0).val / 1024 < cfg0.N := by show (i 0).val / 1024 < grid0.N; rw [hN]; omega
  obtain ⟨-, -, -, -, e4, e5⟩ := block_index ⟨(i 0).val / 1024, ht⟩
  have e4' : win0_2.index ⟨(i 0).val / 1024, ht⟩ (0 : Fin 2) = (i 0).val / 1024 := e4
  refine ⟨⟨(i 0).val / 1024, ht⟩, flush0_2 _, ?_⟩
  rw [mem_block]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4']; omega
  | ⟨1, _⟩ =>
    show win0_2.index ⟨(i 0).val / 1024, ht⟩ (1 : Fin 2) * 2048 ≤ (i 1).val
      ∧ (i 1).val < win0_2.index ⟨(i 0).val / 1024, ht⟩ (1 : Fin 2) * 2048 + 2048
    rw [e5]; omega

/-- THE ARRAY after the run: the layer of the two argument arrays. -/
theorem final (c : Dev nD) : (dats m 0 c).arrAt 2 cfg0.N = Cert.Rbf.rbf (batch m c) (centres m c) :=
  (dats m 0 c).arrAt_eq_of_cover 2 (Cert.Rbf.rbf (batch m c) (centres m c)) (fun t _ => flushed_eq m c t) covered

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v0) = Cert.Rbf.rbf (batch m c) (centres m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩)
    (Cert.KernelIdeal.Value.run_blocks m ρ)

end Cert.KernelIdeal.Whole

end
-- ==== Proof.RbfReference.lean ====
/-
  The reference's last stage is the radial basis layer of its two arguments.

  The host program squares each array and sums over the features (with a zero initial value), spreads the batch
  sums down the columns and the centre sums along the rows, takes the matrix product of the batch with the transposed
  centres, and forms `exp (γ' · max (xsq + csq − 2 · cross) 0)` entry by entry. Read at an index (b, u) every stage
  names row `b` of the batch or row `u` of the centres; with the zero initial value dropped from each sum the term is
  the specification's entry.
-/
import proofs.«139703_j8881992368406_1_alg».proof.Proof.Gen.ReferenceIdeal.Read
import proofs.«139703_j8881992368406_1_alg».proof.Proof.RbfSpec

noncomputable section

namespace Cert.ReferenceIdeal.RefValue

open Cert.ReferenceIdeal Cert.ReferenceIdeal.Read Idealize.ShloMosaic Idealize.ShloMosaic.ValueIdx

/-- Through the two broadcasts, the batch row whose squares are summed at output (b, u) is row `b`; -/
theorem batchSq_idx (i : S65536x2048.Idx) (k : Fin 64) :
    idx_main_v1 (idx_main_v2 (idx_main_v8 i)) k = ix2 (i 0) k :=
  funext fun a => Fin.ext (by match a with | ⟨0, _⟩ => rfl | ⟨1, _⟩ => rfl)
/-- the centre row whose squares are summed there is row `u`; -/
theorem centreSq_idx (i : S65536x2048.Idx) (k : Fin 64) :
    idx_main_v4 (idx_main_v7 (idx_main_v9 i)) k = ix2 (i 1) k :=
  funext fun a => Fin.ext (by match a with | ⟨0, _⟩ => rfl | ⟨1, _⟩ => rfl)
/-- the product's left factor is the batch at (b, k); -/
theorem crossL_idx (i : S65536x2048.Idx) (k : Fin 64) : lidx_main_v6 i k = ix2 (i 0) k :=
  funext fun a => Fin.ext (by match a with | ⟨0, _⟩ => rfl | ⟨1, _⟩ => rfl)
/-- and its right factor, through the transpose, the centres at (u, k). -/
theorem crossR_idx (i : S65536x2048.Idx) (k : Fin 64) : idx_main_v5 (ridx_main_v6 i k) = ix2 (i 1) k :=
  funext fun a => Fin.ext (by match a with | ⟨0, _⟩ => rfl | ⟨1, _⟩ => rfl)

/-- The reference's result, as a function of its two arguments, is the radial basis layer. -/
theorem result_eq (x0 : (⟨S65536x64, .f32⟩ : BufTy).Contents (Elt Ideal)) (x1 : (⟨S2048x64, .f32⟩ : BufTy).Contents (Elt Ideal)) :
    val_main_v18 (F := Ideal) x0 x1 = Cert.Rbf.rbf x0 x1 := by
  funext i
  rw [val_main_v18_apply, val_main_v17_apply, val_main_v16_apply, val_main_cst_3_apply, val_main_v15_apply,
    val_main_v14_apply, val_main_cst_2_apply, val_main_v13_apply, val_main_v12_apply, val_main_v11_apply,
    val_main_cst_1_apply, val_main_v6_apply, val_main_v10_apply, val_main_v8_apply, val_main_v2_apply,
    val_main_v1_apply, val_main_cst_apply, val_main_v9_apply, val_main_v7_apply, val_main_v4_apply,
    val_main_cst_0_apply]
  simp only [val_main_v5_apply, val_main_v0, val_main_v3, mulf, batchSq_idx, centreSq_idx, crossL_idx, crossR_idx,
    Cert.Rbf.rbf, Cert.Rbf.rbfAt, Cert.Rbf.sqNorm, Cert.Rbf.inner,
    Ideal.ofBits_def, Ideal.mulf_def, Ideal.addf_def, Ideal.subf_def, Ideal.maximumf_def, Ideal.hostUnary_exp_def,
    Ideal.ofBits_zero_f32, zero_add]
  rfl

end Cert.ReferenceIdeal.RefValue

end
-- ==== Proof.lean ====
/-
  The kernel computes a radial basis layer, `out (b, u) = exp (−(1/64) · ‖x b − c u‖²)`, with the squared distance
  written as `‖x b‖² + ‖c u‖² − 2 · ⟨x b, c u⟩` and clamped below at zero; the reference computes the same rewrite on the
  host. On the extended reals the two are one function of the argument arrays: the kernel's lane sums and its matrix
  product into a zero accumulator are the plain sums over the 64 features that the host's `reduce` (with a zero initial
  value) and `dot_general` are, the constants are the same words, and the pointwise operations around them are applied
  in the same order. No algebraic law is needed beyond `0 + s = s`, so the finiteness of the inputs is never used.

  The kernel's side: the body's stored value at an index of its block (RbfPayload), the blocks of the 64 grid points
  put together into the whole result array (RbfBlocks). The reference's side: its last stage read at an index
  (RbfReference). Both are stated against one specification (RbfSpec). The frames are the generated runs; there is no
  rewrite of the idealization to justify, so `preserves` is `True`.
-/
import proofs.«139703_j8881992368406_1_alg».proof.Defs
import proofs.«139703_j8881992368406_1_alg».proof.Proof.Gen.Kernel
import proofs.«139703_j8881992368406_1_alg».proof.Proof.Gen.Kernel.Skeleton
import proofs.«139703_j8881992368406_1_alg».proof.Proof.Gen.Kernel.Launch
import proofs.«139703_j8881992368406_1_alg».proof.Proof.Gen.Kernel.Points
import proofs.«139703_j8881992368406_1_alg».proof.Proof.Gen.Kernel.Frame
import proofs.«139703_j8881992368406_1_alg».proof.Proof.Gen.KernelIdeal
import proofs.«139703_j8881992368406_1_alg».proof.Proof.Gen.KernelIdeal.Skeleton
import proofs.«139703_j8881992368406_1_alg».proof.Proof.Gen.KernelIdeal.Launch
import proofs.«139703_j8881992368406_1_alg».proof.Proof.Gen.KernelIdeal.Points
import proofs.«139703_j8881992368406_1_alg».proof.Proof.Gen.KernelIdeal.Frame
import proofs.«139703_j8881992368406_1_alg».proof.Proof.Gen.ReferenceIdeal
import proofs.«139703_j8881992368406_1_alg».proof.Proof.Gen.Pre_finite_inputs
import proofs.«139703_j8881992368406_1_alg».proof.Proof.Gen.KernelIdeal.Value
import proofs.«139703_j8881992368406_1_alg».proof.Proof.Gen.ReferenceIdeal.Run
import proofs.«139703_j8881992368406_1_alg».proof.Proof.Gen.ReferenceIdeal.Read
import proofs.«139703_j8881992368406_1_alg».proof.Proof.RbfSpec
import proofs.«139703_j8881992368406_1_alg».proof.Proof.RbfPayload
import proofs.«139703_j8881992368406_1_alg».proof.Proof.RbfBlocks
import proofs.«139703_j8881992368406_1_alg».proof.Proof.RbfReference
import Idealize.ShloMosaic.Adequacy
import Idealize.ShloMosaic.Init

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference is host operations only: its frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the two arguments, the kernel's result array ends at the radial basis layer of the
    arguments (the blocks put together) and the reference's at its last stage of the same arguments, which is that
    layer too. -/
theorem algebraic : Cert.algebraic_KernelIdeal_ReferenceIdeal := by
  intro m ρ m' ρ' _ hagree
  refine ⟨fun c => Cert.Rbf.rbf (Cert.KernelIdeal.Whole.batch m c) (Cert.KernelIdeal.Whole.centres m c),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
